-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x16384 : Shape := ⟨3, ![8, 256, 16384]⟩
abbrev S_ : Shape := ⟨0, ![]⟩

class Facts : Prop where
  bcast_S_S8x256x16384 : S_.BroadcastsInDim S8x256x16384 (![] : Fin 0 → Fin S8x256x16384.rank)
  reducesTo_S8x256x16384_S_d0_1_2 : S8x256x16384.ReducesTo [0, 1, 2] S_
  h_S_ : 0 < S_.numel

variable [Facts]

def fn {F : FTy → Type} [FloatOps F] (main_arg0 : FVec F S8x256x16384 .f32) : IVec S_ 1 :=
  let main_v0 : FVec F S8x256x16384 .f32 := Host.absf main_arg0
  let main_cst : FVec F S_ .f32 := constant S_ .f32 0x7F800000#32
  let main_v1 : FVec F S8x256x16384 .f32 := broadcastInDim S8x256x16384 ![] bcast_S_S8x256x16384 main_cst
  let main_v2 : IVec S8x256x16384 1 := cmpf .olt main_v0 main_v1
  let main_c : IVec S_ 1 := constantI S_ 1 1#1
  let main_v3 : IVec S_ 1 := (fun x v => Host.reduce IntOp.andi x v reducesTo_S8x256x16384_S_d0_1_2 h_S_) main_v2 main_c
  main_v3
-- ==== Kernel.lean ====
abbrev S8x256x16384 : Shape := ⟨3, ![8, 256, 16384]⟩
abbrev S8x64x65536 : Shape := ⟨3, ![8, 64, 65536]⟩
abbrev S8x256x512 : Shape := ⟨3, ![8, 256, 512]⟩
abbrev S8x64x2048 : Shape := ⟨3, ![8, 64, 2048]⟩
abbrev S8x64x4x512 : Shape := ⟨4, ![8, 64, 4, 512]⟩
abbrev S8x64x512x4 : Shape := ⟨4, ![8, 64, 512, 4]⟩

abbrev nBuf : Space → Nat
  | .hbm => 2
  | .vmem => 4
  | .smem => 0
  | _ => 0

abbrev bufTy : (tb : Table) → Fin (tcTables nBuf tb) → BufTy
  | .hbm, ⟨0, _⟩ => ⟨S8x256x16384, .f32⟩
  | .hbm, ⟨1, _⟩ => ⟨S8x64x65536, .f32⟩
  | .local _ .vmem, ⟨0, _⟩ => ⟨S8x256x512, .f32⟩
  | .local _ .vmem, ⟨1, _⟩ => ⟨S8x256x512, .f32⟩
  | .local _ .vmem, ⟨2, _⟩ => ⟨S8x64x2048, .f32⟩
  | .local _ .vmem, ⟨3, _⟩ => ⟨S8x64x2048, .f32⟩
  | _, _ => ⟨S8x256x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S8x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S8x256x512_S8x256x512_0_0_0 : ∀ a, (![0, 0, 0] : Fin 3 → Nat) a + S8x256x512.size a ≤ S8x256x512.size a
  h_S8x256x512 : 0 < S8x256x512.numel
  shapeCasts_S8x256x512_S8x64x4x512 : S8x256x512.ShapeCasts S8x64x4x512
  transposes_S8x64x4x512_p0_1_3_2_S8x64x512x4 : S8x64x4x512.Transposes [0, 1, 3, 2] S8x64x512x4
  shapeCasts_S8x64x512x4_S8x64x2048 : S8x64x512x4.ShapeCasts S8x64x2048
  inb_S8x64x2048_S8x64x2048_0_0_0 : ∀ a, (![0, 0, 0] : Fin 3 → Nat) a + S8x64x2048.size a ≤ S8x64x2048.size a
  h_S8x64x2048 : 0 < S8x64x2048.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x512.size a ≤ S8x256x16384.size a
  hwx0_0 : ∀ i : grid0.Coords, EltTy.bits .f32 = 32 ∨ (Rect.block (s := S8x256x16384) S8x256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x64x2048.size a ≤ S8x64x65536.size a
  hwx0_1 : ∀ i : grid0.Coords, EltTy.bits .f32 = 32 ∨ (Rect.block (s := S8x64x65536) S8x64x2048.size (cc0_transform_1 i) (hinb0_1 i)).WholeWords (EltTy.packing .f32)

variable [Facts₀]

abbrev win0_0 : Pipeline.Window sig grid0 :=
  Pipeline.Window.ofSpec (Memref.whole main_arg0) S8x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x64x2048.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8x256x16384 : Shape := ⟨3, ![8, 256, 16384]⟩
abbrev S8x64x4x16384 : Shape := ⟨4, ![8, 64, 4, 16384]⟩
abbrev S8x64x16384x4 : Shape := ⟨4, ![8, 64, 16384, 4]⟩
abbrev S8x64x65536 : Shape := ⟨3, ![8, 64, 65536]⟩

abbrev nBuf : Space → Nat
  | .hbm => 4
  | .vmem => 0
  | .smem => 0
  | _ => 0

abbrev bufTy : (tb : Table) → Fin (tcTables nBuf tb) → BufTy
  | .hbm, ⟨0, _⟩ => ⟨S8x256x16384, .f32⟩
  | .hbm, ⟨1, _⟩ => ⟨S8x64x4x16384, .f32⟩
  | .hbm, ⟨2, _⟩ => ⟨S8x64x16384x4, .f32⟩
  | .hbm, ⟨3, _⟩ => ⟨S8x64x65536, .f32⟩
  | _, _ => ⟨S8x256x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]

class Facts₀ : Prop where
  shapeCasts_S8x256x16384_S8x64x4x16384 : S8x256x16384.ShapeCasts S8x64x4x16384
  transposes_S8x64x4x16384_S8x64x16384x4_0_1_3_2 : S8x64x4x16384.Transposes [0, 1, 3, 2] S8x64x16384x4
  shapeCasts_S8x64x16384x4_S8x64x65536 : S8x64x16384x4.ShapeCasts S8x64x65536

variable [Facts₀]

class Facts : Prop extends Facts₀ where

variable [Facts]
-- ==== Proof.Shuffle.lean ====
/-
  Pixel shuffle along the last axis with upscale factor 4, as ONE function of the input array.

  The input has shape [8, 256, 16384]; think of its 256 channels as 64 groups of 4. The result has shape
  [8, 64, 65536]: position p of group g in batch b holds the input's entry at batch b, channel 4·g + (p mod 4),
  position p div 4. That is what "split the channels into (group, phase), swap phase with position, merge
  (position, phase)" computes: merging the two last axes of sizes (L, 4) sends (l, r) to 4·l + r, so the merged
  coordinate p splits back as l = p div 4, r = p mod 4.

  The same three steps on a block of 512 positions ([8, 256, 512] to [8, 64, 2048]) read a block entry at the
  block-local index built the same way; `shuffle_block` says so, by following the merged coordinate through
  the two row-major re-groupings and the swap of the two last axes.
-/
import Idealize.ShloMosaic.Lib.ValueIdx
import Idealize.ShloMosaic.Lib.Pipeline.Value

namespace Cert.PixelShuffle

open Idealize.ShloMosaic Idealize.ShloMosaic.ValueIdx

/-- The input array, the result array, and the shapes a block of 512 positions passes through. -/
abbrev Arr : Shape := ⟨3, ![8, 256, 16384]⟩
abbrev Res : Shape := ⟨3, ![8, 64, 65536]⟩
abbrev Blk : Shape := ⟨3, ![8, 256, 512]⟩
abbrev BlkSplit : Shape := ⟨4, ![8, 64, 4, 512]⟩
abbrev BlkSwap : Shape := ⟨4, ![8, 64, 512, 4]⟩
abbrev BlkRes : Shape := ⟨3, ![8, 64, 2048]⟩

/-- Where result entry (b, g, p) comes from: (b, 4·g + p mod 4, p div 4). -/
def src (i : Res.Idx) : Arr.Idx :=
  ix3 (⟨(i 0).val, (i 0).isLt⟩ : Fin 8)
    (⟨4 * (i 1).val + (i 2).val % 4, by have h1 : (i 1).val < 64 := (i 1).isLt; omega⟩ : Fin 256)
    (⟨(i 2).val / 4, by have h2 : (i 2).val < 65536 := (i 2).isLt; omega⟩ : Fin 16384)

theorem src_val0 (i : Res.Idx) : (src i 0).val = (i 0).val := rfl
theorem src_val1 (i : Res.Idx) : (src i 1).val = 4 * (i 1).val + (i 2).val % 4 := rfl
theorem src_val2 (i : Res.Idx) : (src i 2).val = (i 2).val / 4 := rfl

/-- The pixel shuffle of a whole array. -/
def shuffle {α : Type} (x : Arr.Idx → α) : Res.Idx → α := fun i => x (src i)

/-- The same source rule inside one block of 512 positions. -/
def srcBlk (j : BlkRes.Idx) : Blk.Idx :=
  ix3 (⟨(j 0).val, (j 0).isLt⟩ : Fin 8)
    (⟨4 * (j 1).val + (j 2).val % 4, by have h1 : (j 1).val < 64 := (j 1).isLt; omega⟩ : Fin 256)
    (⟨(j 2).val / 4, by have h2 : (j 2).val < 2048 := (j 2).isLt; omega⟩ : Fin 512)

theorem srcBlk_val0 (j : BlkRes.Idx) : (srcBlk j 0).val = (j 0).val := rfl
theorem srcBlk_val1 (j : BlkRes.Idx) : (srcBlk j 1).val = 4 * (j 1).val + (j 2).val % 4 := rfl
theorem srcBlk_val2 (j : BlkRes.Idx) : (srcBlk j 2).val = (j 2).val / 4 := rfl

/-- The merged coordinate p of a block's result, split into (position, phase) = (p div 4, p mod 4). -/
def swapIdx (j : BlkRes.Idx) : BlkSwap.Idx :=
  ix4 (⟨(j 0).val, (j 0).isLt⟩ : Fin 8) (⟨(j 1).val, (j 1).isLt⟩ : Fin 64)
    (⟨(j 2).val / 4, by have h2 : (j 2).val < 2048 := (j 2).isLt; omega⟩ : Fin 512)
    (⟨(j 2).val % 4, by omega⟩ : Fin 4)

/-- The same entry before the two last axes were swapped: (phase, position). -/
def splitIdx (j : BlkRes.Idx) : BlkSplit.Idx :=
  ix4 (⟨(j 0).val, (j 0).isLt⟩ : Fin 8) (⟨(j 1).val, (j 1).isLt⟩ : Fin 64)
    (⟨(j 2).val % 4, by omega⟩ : Fin 4)
    (⟨(j 2).val / 4, by have h2 : (j 2).val < 2048 := (j 2).isLt; omega⟩ : Fin 512)

/-- Split the channels, swap the two last axes, merge them: on a block, the result at `j` is the block at `srcBlk j`.
    Merging (512, 4) puts (l, r) at row-major position 4·l + r; splitting 256 channels as (64, 4) puts channel
    4·g + r at (g, r). -/
theorem shuffle_block {α : Type} (v : Blk.Idx → α) (h1 : Blk.ShapeCasts BlkSplit)
    (h2 : BlkSplit.Transposes [0, 1, 3, 2] BlkSwap) (h3 : BlkSwap.ShapeCasts BlkRes) (j : BlkRes.Idx) :
    shapeCast BlkRes (transpose BlkSwap [0, 1, 3, 2] (shapeCast BlkSplit v h1) h2) h3 j = v (srcBlk j) := by
  have b0 : (j 0).val < 8 := (j 0).isLt
  have b1 : (j 1).val < 64 := (j 1).isLt
  have b2 : (j 2).val < 2048 := (j 2).isLt
  refine (shapeCast_apply (transpose BlkSwap [0, 1, 3, 2] (shapeCast BlkSplit v h1) h2) h3 j (swapIdx j) ?_).trans ?_
  · rewrite [Shape.rowMajor_val_four, Shape.rowMajor_val_three]
    show (((j 0).val * 64 + (j 1).val) * 512 + (j 2).val / 4) * 4 + (j 2).val % 4
      = ((j 0).val * 64 + (j 1).val) * 2048 + (j 2).val
    omega
  refine (transpose_apply [0, 1, 3, 2] (shapeCast BlkSplit v h1) h2 (swapIdx j) (splitIdx j)
    (fun b => match b with | ⟨0, _⟩ => rfl | ⟨1, _⟩ => rfl | ⟨2, _⟩ => rfl | ⟨3, _⟩ => rfl)).trans ?_
  refine shapeCast_apply v h1 (splitIdx j) (srcBlk j) ?_
  rewrite [Shape.rowMajor_val_three, Shape.rowMajor_val_four]
  show ((j 0).val * 256 + (4 * (j 1).val + (j 2).val % 4)) * 512 + (j 2).val / 4
    = (((j 0).val * 64 + (j 1).val) * 4 + (j 2).val % 4) * 512 + (j 2).val / 4
  omega

end Cert.PixelShuffle
-- ==== Proof.KernelValue.lean ====
/-
  The kernel's result array is the pixel shuffle of its argument.

  The grid has 32 points; point t stages positions [512·t, 512·t + 512) of every batch and channel, and writes
  back positions [2048·t, 2048·t + 2048) of every batch and group. Its body shuffles the staged block:
  block-local result (b, g, q) is the block's entry at (b, 4·g + q mod 4, q div 4). In array coordinates the
  result position is p = 2048·t + q and the source position is 512·t + q div 4 = p div 4, while q mod 4 = p mod 4
  (2048 is a multiple of 4): each point writes exactly its block of the whole-array shuffle. The 32 blocks tile
  the result array (position p lies in block p div 2048), so the array ends holding the shuffle everywhere.
-/
import proofs.«114743_j52785148068480_1_alg».proof.Proof.Gen.KernelIdeal.Value
import proofs.«114743_j52785148068480_1_alg».proof.Proof.Shuffle

noncomputable section

namespace Cert.KernelIdeal.ShuffleValue

open Cert.KernelIdeal Cert.KernelIdeal.Gen Idealize.ShloMosaic Idealize.ShloMosaic.TcCoe Idealize.SL.Sem Cert.PixelShuffle
open Idealize.ShloMosaic.Pipeline (Dat)

variable {F : FTy → Type} [FloatOps F]
variable (m : (ℓ : Loc nD τ sig) → Buf (Elt F) ℓ) (ρ : Dev nD → PrngReg)

theorem zeros3 : (![0, 0, 0] : Fin 3 → Nat) = fun _ => 0 := funext fun a => by fin_cases a <;> rfl

/-- The body's stored value, at a block-local index, is the loaded block at the shuffled index. -/
theorem payload_apply (x0 : Vec F S8x256x512 .f32) (j : S8x64x2048.Idx) : k0_pay1 x0 j = x0 (srcBlk j) := by
  unfold k0_pay1
  exact shuffle_block x0 _ _ _ j

/-- Both windows move along the position axis only, together: at every grid point the block indices on the batch and
    channel axes are 0, and the input's and the output's block indices on the position axis agree (and stay below 32). -/
theorem idx_facts : ∀ t : Fin cfg0.N,
    win0_0.index t (0 : Fin 3) = 0 ∧ win0_0.index t (1 : Fin 3) = 0
    ∧ win0_1.index t (0 : Fin 3) = 0 ∧ win0_1.index t (1 : Fin 3) = 0
    ∧ win0_0.index t (2 : Fin 3) = win0_1.index t (2 : Fin 3) ∧ win0_1.index t (2 : Fin 3) ≤ 31 :=
  (by decide +kernel : ∀ t : Fin grid0.N, _)

/-- Every block along the position axis is some point's. -/
theorem idx_onto : ∀ q : Fin 32, ∃ t : Fin cfg0.N, win0_1.index t = ![0, 0, q.val] :=
  (by decide +kernel : ∀ q : Fin 32, ∃ t : Fin grid0.N, win0_1.index t = ![0, 0, q.val])

/-- What point `t` writes back is block `t` of the shuffle of the argument array. -/
theorem flushed_eq (c : Dev nD) (t : Fin cfg0.N) :
    (dats m 0 c).flushed 1 t = ((cfg0.win 1).blk t).view.read (Elt F) (shuffle (V m c main_arg0)) := by
  rw [Value.flushed1]
  unfold out0_1
  rw [View.canon_unit_zero zeros3]
  simp only [View.ld_unit_zero (S := S8x256x512) zeros3]
  obtain ⟨e0, e1, e2, e3, e4, e5⟩ := idx_facts t
  funext j
  show k0_pay1 (iblk m c 0 t) j = V m c main_arg0 (src (((cfg0.win 1).blk t).view.emb j))
  refine (payload_apply (F := F) (iblk m c 0 t) j).trans ?_
  show V m c main_arg0 (((cfg0.win 0).blk t).view.emb (srcBlk j)) = V m c main_arg0 (src (((cfg0.win 1).blk t).view.emb j))
  refine congrArg (V m c main_arg0) (funext fun a => Fin.ext ?_)
  have b1 : (j 1).val < 64 := (j 1).isLt
  have b2 : (j 2).val < 2048 := (j 2).isLt
  match a with
  | ⟨0, _⟩ =>
    show win0_0.index t (0 : Fin 3) * 8 + 1 * (j 0).val = win0_1.index t (0 : Fin 3) * 8 + 1 * (j 0).val
    omega
  | ⟨1, _⟩ =>
    show win0_0.index t (1 : Fin 3) * 256 + 1 * (4 * (j 1).val + (j 2).val % 4)
      = 4 * (win0_1.index t (1 : Fin 3) * 64 + 1 * (j 1).val) + (win0_1.index t (2 : Fin 3) * 2048 + 1 * (j 2).val) % 4
    omega
  | ⟨2, _⟩ =>
    show win0_0.index t (2 : Fin 3) * 512 + 1 * ((j 2).val / 4) = (win0_1.index t (2 : Fin 3) * 2048 + 1 * (j 2).val) / 4
    omega

/-- An index of the result array is in point `t`'s block iff each coordinate is in the block's range on its axis. -/
theorem mem_blk (t : Fin cfg0.N) (i : S8x64x65536.Idx) :
    i ∈ ((cfg0.win 1).blk t).view.set ↔ ∀ a : Fin 3, win0_1.index t a * S8x64x2048.size a ≤ (i a).val
      ∧ (i a).val < win0_1.index t a * S8x64x2048.size a + S8x64x2048.size a := by
  show i ∈ ((View.whole main_v0).slice (win0_1.rect t)).set ↔ _
  rw [View.set_slice_whole, Rect.mem_set_unit]
  exact Iff.rfl

/-- The blocks tile the result array: position p is in the block of the point whose block index is p div 2048. -/
theorem cover (i : S8x64x65536.Idx) :
    ∃ t : Fin cfg0.N, (cfg0.win 1).flush t = true ∧ i ∈ ((cfg0.win 1).blk t).view.set := by
  have h0 : (i 0).val < 8 := (i 0).isLt
  have h1 : (i 1).val < 64 := (i 1).isLt
  have h2 : (i 2).val < 65536 := (i 2).isLt
  obtain ⟨t, ht⟩ := idx_onto ⟨(i 2).val / 2048, by omega⟩
  have q0 : win0_1.index t (0 : Fin 3) = 0 := congrFun ht 0
  have q1 : win0_1.index t (1 : Fin 3) = 0 := congrFun ht 1
  have q2 : win0_1.index t (2 : Fin 3) = (i 2).val / 2048 := congrFun ht 2
  refine ⟨t, flush0_1 t, ?_⟩
  rw [mem_blk]
  intro a
  match a with
  | ⟨0, _⟩ =>
    show win0_1.index t (0 : Fin 3) * 8 ≤ (i 0).val ∧ (i 0).val < win0_1.index t (0 : Fin 3) * 8 + 8
    omega
  | ⟨1, _⟩ =>
    show win0_1.index t (1 : Fin 3) * 64 ≤ (i 1).val ∧ (i 1).val < win0_1.index t (1 : Fin 3) * 64 + 64
    omega
  | ⟨2, _⟩ =>
    show win0_1.index t (2 : Fin 3) * 2048 ≤ (i 2).val ∧ (i 2).val < win0_1.index t (2 : Fin 3) * 2048 + 2048
    omega

/-- The result array after the run is the shuffle of the argument array as launched. -/
theorem final (c : Dev nD) :
    (dats m 0 c).arrAt 1 cfg0.N = shuffle (m ((c : Thread nD τ).loc main_arg0)) :=
  (dats m 0 c).arrAt_eq_of_cover 1 (shuffle (V m c main_arg0)) (fun t _ => flushed_eq m c t) cover

/-- The kernel's run: the result array ends at the shuffle of the argument, the argument unchanged. -/
theorem run : θ_run defs (onTc (τ := τ) (main (F := F))) ⟨m, fun _ => 0, ρ⟩ fun r => ∀ c : Dev nD,
      r.2.mem ((c : Thread nD τ).loc main_v0) = shuffle (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.ShuffleValue

end
-- ==== Proof.RefValue.lean ====
/-
  The reference program's result is the pixel shuffle of its argument.

  The reference re-groups the whole array in three steps: split the 256 channels as (64 groups, 4 phases), swap
  phase with position, merge (position, phase) into one axis of length 65536. Read at a result index (b, g, p):
  un-merging p gives position p div 4 and phase p mod 4; the swap puts the phase before the position; merging
  (group, phase) back gives channel 4·g + p mod 4. So the entry is the argument's at (b, 4·g + p mod 4, p div 4).
-/
import proofs.«114743_j52785148068480_1_alg».proof.Proof.Gen.ReferenceIdeal.Read
import proofs.«114743_j52785148068480_1_alg».proof.Proof.Shuffle

noncomputable section

namespace Cert.ReferenceIdeal.ShuffleValue

open Cert.ReferenceIdeal Cert.ReferenceIdeal.Read Idealize.ShloMosaic Cert.PixelShuffle

variable {F : FTy → Type} [FloatOps F]

/-! ## Merging (group, phase) into a channel: an index (b, g, r, l) of the split array is (b, 4·g + r, l) of the array -/

theorem merge_val0 (k : S8x64x4x16384.Idx) : (idx_main_v0 k 0).val = (k 0).val := by
  have h0 : (k 0).val < 8 := (k 0).isLt
  have h1 : (k 1).val < 64 := (k 1).isLt
  have h2 : (k 2).val < 4 := (k 2).isLt
  have h3 : (k 3).val < 16384 := (k 3).isLt
  show ((((k 0).val * 64 + (k 1).val) * 4 + (k 2).val) * 16384 + (k 3).val) / 4194304 = (k 0).val
  omega

theorem merge_val1 (k : S8x64x4x16384.Idx) : (idx_main_v0 k 1).val = 4 * (k 1).val + (k 2).val := by
  have h0 : (k 0).val < 8 := (k 0).isLt
  have h1 : (k 1).val < 64 := (k 1).isLt
  have h2 : (k 2).val < 4 := (k 2).isLt
  have h3 : (k 3).val < 16384 := (k 3).isLt
  show ((((k 0).val * 64 + (k 1).val) * 4 + (k 2).val) * 16384 + (k 3).val) / 16384 % 256 = 4 * (k 1).val + (k 2).val
  omega

theorem merge_val2 (k : S8x64x4x16384.Idx) : (idx_main_v0 k 2).val = (k 3).val := by
  have h3 : (k 3).val < 16384 := (k 3).isLt
  show ((((k 0).val * 64 + (k 1).val) * 4 + (k 2).val) * 16384 + (k 3).val) % 16384 = (k 3).val
  omega

/-! ## Un-merging the last axis and swapping back: result index (b, g, p) is (b, g, p mod 4, p div 4) of the split array -/

theorem split_val0 (i : S8x64x65536.Idx) : (idx_main_v1 (idx_main_v2 i) 0).val = (i 0).val := by
  have h0 : (i 0).val < 8 := (i 0).isLt
  have h1 : (i 1).val < 64 := (i 1).isLt
  have h2 : (i 2).val < 65536 := (i 2).isLt
  show (((i 0).val * 64 + (i 1).val) * 65536 + (i 2).val) / 4194304 = (i 0).val
  omega

theorem split_val1 (i : S8x64x65536.Idx) : (idx_main_v1 (idx_main_v2 i) 1).val = (i 1).val := by
  have h0 : (i 0).val < 8 := (i 0).isLt
  have h1 : (i 1).val < 64 := (i 1).isLt
  have h2 : (i 2).val < 65536 := (i 2).isLt
  show (((i 0).val * 64 + (i 1).val) * 65536 + (i 2).val) / 65536 % 64 = (i 1).val
  omega

theorem split_val2 (i : S8x64x65536.Idx) : (idx_main_v1 (idx_main_v2 i) 2).val = (i 2).val % 4 := by
  show (((i 0).val * 64 + (i 1).val) * 65536 + (i 2).val) % 4 = (i 2).val % 4
  omega

theorem split_val3 (i : S8x64x65536.Idx) : (idx_main_v1 (idx_main_v2 i) 3).val = (i 2).val / 4 := by
  have h2 : (i 2).val < 65536 := (i 2).isLt
  show (((i 0).val * 64 + (i 1).val) * 65536 + (i 2).val) / 4 % 16384 = (i 2).val / 4
  omega

/-- The three index maps composed are the shuffle's source rule. -/
theorem idx_chain (i : S8x64x65536.Idx) : idx_main_v0 (idx_main_v1 (idx_main_v2 i)) = src i := by
  funext a
  apply Fin.ext
  match a with
  | ⟨0, _⟩ => exact (merge_val0 _).trans (split_val0 i)
  | ⟨1, _⟩ =>
    refine (merge_val1 _).trans ?_
    rw [split_val1, split_val2]
    rfl
  | ⟨2, _⟩ => exact (merge_val2 _).trans (split_val3 i)

/-- The reference's last stage, as a function of the argument, is the pixel shuffle. -/
theorem ref_eq (x : S8x256x16384.Idx → Elt F .f32) : val_main_v2 (F := F) x = shuffle x := by
  funext i
  rw [val_main_v2_apply, val_main_v1_apply, val_main_v0_apply, idx_chain]
  rfl

end Cert.ReferenceIdeal.ShuffleValue

end
-- ==== Proof.lean ====
/-
  Pixel shuffle along the last axis, upscale factor 4: result[b, g, p] = x[b, 4·g + p mod 4, p div 4], for x of shape
  [8, 256, 16384] and a result of shape [8, 64, 65536].

  The reference computes it on the whole array by three re-groupings: split the channels as (group, phase), swap
  phase with position, merge (position, phase). The kernel does the same three steps on 32 blocks of 512 positions,
  each grid point writing 2048 consecutive result positions. Because 2048·t + q has the same remainder mod 4 as q and
  (2048·t + q) div 4 = 512·t + q div 4, a point's block is exactly its part of the whole-array shuffle, and the 32
  blocks tile the result. No arithmetic is done on the values, so both programs give the same extended reals entry by
  entry for every input, and the finiteness precondition is never used.

  Proof/Shuffle.lean states the shuffle as one function and reads the block-sized re-grouping at an index;
  Proof/KernelValue.lean shows the kernel's result array is that function of its argument; Proof/RefValue.lean shows
  the reference's result is the same function. The three frames come from the generated runs; the kernel's
  idealization rewrote nothing, so that conjunct is `True`.
-/
import proofs.«114743_j52785148068480_1_alg».proof.Defs
import proofs.«114743_j52785148068480_1_alg».proof.Proof.Gen.Kernel
import proofs.«114743_j52785148068480_1_alg».proof.Proof.Gen.Kernel.Skeleton
import proofs.«114743_j52785148068480_1_alg».proof.Proof.Gen.Kernel.Launch
import proofs.«114743_j52785148068480_1_alg».proof.Proof.Gen.Kernel.Points
import proofs.«114743_j52785148068480_1_alg».proof.Proof.Gen.Kernel.Frame
import proofs.«114743_j52785148068480_1_alg».proof.Proof.Gen.KernelIdeal
import proofs.«114743_j52785148068480_1_alg».proof.Proof.Gen.KernelIdeal.Skeleton
import proofs.«114743_j52785148068480_1_alg».proof.Proof.Gen.KernelIdeal.Launch
import proofs.«114743_j52785148068480_1_alg».proof.Proof.Gen.KernelIdeal.Points
import proofs.«114743_j52785148068480_1_alg».proof.Proof.Gen.KernelIdeal.Frame
import proofs.«114743_j52785148068480_1_alg».proof.Proof.Gen.KernelIdeal.Value
import proofs.«114743_j52785148068480_1_alg».proof.Proof.Gen.ReferenceIdeal
import proofs.«114743_j52785148068480_1_alg».proof.Proof.Gen.ReferenceIdeal.Run
import proofs.«114743_j52785148068480_1_alg».proof.Proof.Gen.ReferenceIdeal.Read
import proofs.«114743_j52785148068480_1_alg».proof.Proof.Gen.Pre_finite_inputs
import proofs.«114743_j52785148068480_1_alg».proof.Proof.KernelValue
import proofs.«114743_j52785148068480_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel region: its frame is its run with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- Both runs end with the result array at the pixel shuffle of the (agreeing) argument arrays. -/
theorem algebraic : Cert.algebraic_KernelIdeal_ReferenceIdeal := by
  intro m ρ m' ρ' _ hagree
  refine ⟨_, Cert.KernelIdeal.ShuffleValue.run (F := Ideal) m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v2_eq (F := Ideal) _).trans ?_
  rw [Cert.ReferenceIdeal.ShuffleValue.ref_eq, hagree c]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
